-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S2048x16384 : Shape := ⟨2, ![2048, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_

variable [Facts]

def fn {F : FTy → Type} [FloatOps F] (main_arg0 : FVec F S4096x16384 .f32) (main_arg1 : FVec F S2048x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  main_v8
-- ==== Kernel.lean ====
abbrev S4096x16384 : Shape := ⟨2, ![4096, 16384]⟩
abbrev S2048x16384 : Shape := ⟨2, ![2048, 16384]⟩
abbrev S2048x2048 : Shape := ⟨2, ![2048, 2048]⟩
abbrev S_ : Shape := ⟨0, ![]⟩
abbrev S1x2048x1x2048 : Shape := ⟨4, ![1, 2048, 1, 2048]⟩
abbrev S1x2048x8x2048 : Shape := ⟨4, ![1, 2048, 8, 2048]⟩
abbrev S4096x2048 : Shape := ⟨2, ![4096, 2048]⟩
abbrev S512x1024 : Shape := ⟨2, ![512, 1024]⟩
abbrev S2048x1024 : Shape := ⟨2, ![2048, 1024]⟩
abbrev S512x2048 : Shape := ⟨2, ![512, 2048]⟩

abbrev nBuf : Space → Nat
  | .hbm => 16
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S2048x16384, .f32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S1x2048x1x2048, .f32⟩
  | .hbm, ⟨10, _⟩ => ⟨S1x2048x8x2048, .f32⟩
  | .hbm, ⟨11, _⟩ => ⟨S2048x16384, .f32⟩
  | .hbm, ⟨12, _⟩ => ⟨S2048x16384, .f32⟩
  | .hbm, ⟨13, _⟩ => ⟨S4096x16384, .bf16⟩
  | .hbm, ⟨14, _⟩ => ⟨S2048x16384, .bf16⟩
  | .hbm, ⟨15, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S2048x2048 : S_.BroadcastsInDim S2048x2048 (![] : Fin 0 → Fin S2048x2048.rank)
  shapeCasts_S2048x2048_S1x2048x1x2048 : S2048x2048.ShapeCasts S1x2048x1x2048
  bcast_S1x2048x1x2048_S1x2048x8x2048_0_1_2_3 : S1x2048x1x2048.BroadcastsInDim S1x2048x8x2048 (![0, 1, 2, 3] : Fin 4 → Fin S1x2048x8x2048.rank)
  shapeCasts_S1x2048x8x2048_S2048x16384 : S1x2048x8x2048.ShapeCasts S2048x16384
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x16384.size a
  hwx0_0 : ∀ i : grid0.Coords, EltTy.bits .bf16 = 32 ∨ (Rect.block (s := S4096x16384) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x16384.size a
  hwx0_1 : ∀ i : grid0.Coords, EltTy.bits .bf16 = 32 ∨ (Rect.block (s := S2048x16384) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S2048x16384 : Shape := ⟨2, ![2048, 16384]⟩
abbrev S2048x2048 : Shape := ⟨2, ![2048, 2048]⟩
abbrev S_ : Shape := ⟨0, ![]⟩
abbrev S1x2048x1x2048 : Shape := ⟨4, ![1, 2048, 1, 2048]⟩
abbrev S1x2048x8x2048 : Shape := ⟨4, ![1, 2048, 8, 2048]⟩
abbrev S16384x2048 : Shape := ⟨2, ![16384, 2048]⟩
abbrev S4096x2048 : Shape := ⟨2, ![4096, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S2048x16384, .f32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S1x2048x1x2048, .f32⟩
  | .hbm, ⟨10, _⟩ => ⟨S1x2048x8x2048, .f32⟩
  | .hbm, ⟨11, _⟩ => ⟨S2048x16384, .f32⟩
  | .hbm, ⟨12, _⟩ => ⟨S2048x16384, .f32⟩
  | .hbm, ⟨13, _⟩ => ⟨S16384x2048, .f32⟩
  | .hbm, ⟨14, _⟩ => ⟨S4096x2048, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S1x2048x1x2048 : S2048x2048.ShapeCasts S1x2048x1x2048
  bcast_S1x2048x1x2048_S1x2048x8x2048_0_1_2_3 : S1x2048x1x2048.BroadcastsInDim S1x2048x8x2048 (![0, 1, 2, 3] : Fin 4 → Fin S1x2048x8x2048.rank)
  shapeCasts_S1x2048x8x2048_S2048x16384 : S1x2048x8x2048.ShapeCasts S2048x16384
  transposes_S2048x16384_S16384x2048_1_0 : S2048x16384.Transposes [1, 0] S16384x2048
  dot_S4096x16384_S16384x2048_S4096x2048_1_0_0_1_n_n_wf : DotDims.WF S4096x16384 S16384x2048 S4096x2048 [1] [0] [0] [1] [] []

variable [Facts₀]

def dot_S4096x16384_S16384x2048_S4096x2048_1_0_0_1_n_n : DotDims S4096x16384 S16384x2048 S4096x2048 where
  lhsContracting := [1]
  rhsContracting := [0]
  lhsNonContracting := [0]
  rhsNonContracting := [1]
  lhsBatch := []
  rhsBatch := []
  wf := dot_S4096x16384_S16384x2048_S4096x2048_1_0_0_1_n_n_wf

class Facts : Prop extends Facts₀ where

variable [Facts]
-- ==== Proof.LibMatmulNT.lean ====
/-
  A matrix product that contracts the LAST axis of both operands, read at an index. For dimension numbers that contract
  axis 1 of an [M, K] left operand with axis 1 of an [N, K] right operand (no batch axes) — the left operand times the
  transpose of the right one — a matrix-unit product into the zero accumulator, over the extended reals, has at (p, q)
  the sum over k of left (p, k) times right (q, k): row p of the left operand against row q of the right operand.
-/
import Idealize.ShloMosaic.Lib.ValueIdx
import Idealize.ShloMosaic.PureOps.Ideal.Laws

noncomputable section

namespace Cert.LibMatmulNT

open Idealize.ShloMosaic Idealize.ShloMosaic.ValueIdx

variable {M K N : Nat}

/-- The dimension numbers of a product contracting both operands' axis 1, as a record over its well-formedness evidence. -/
abbrev ntDims (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ := ⟨[1], [1], [0], [0], [], [], wf⟩

variable (wf : DotDims.WF (⟨2, ![M, K]⟩ : Shape) ⟨2, ![N, K]⟩ ⟨2, ![M, N]⟩ [1] [1] [0] [0] [] [])

/-- The left operand's row axis reads the result's row coordinate. -/
theorem lhs_axis0 (j : (⟨2, ![M, N]⟩ : Shape).Idx) (q : (ntDims wf).contr.Idx) :
    ((ntDims wf).lhsIdx j q 0).val = (j 0).val := by
  unfold DotDims.lhsIdx
  rw [dif_neg (show ¬(0 : Fin (⟨2, ![M, K]⟩ : Shape).rank) ∈ (ntDims wf).lhsBatch from List.not_mem_nil),
    dif_pos (show (0 : Fin (⟨2, ![M, K]⟩ : Shape).rank) ∈ (ntDims wf).lhsNonContracting from List.mem_singleton.mpr rfl)]
  rfl
/-- The left operand's contracted axis reads the contraction coordinate. -/
theorem lhs_axis1 (j : (⟨2, ![M, N]⟩ : Shape).Idx) (q : (ntDims wf).contr.Idx) :
    ((ntDims wf).lhsIdx j q 1).val = (q ⟨0, Nat.one_pos⟩).val :=
  (ntDims wf).lhsIdx_val_of_single rfl j q
/-- The right operand's row axis reads the result's COLUMN coordinate: the right operand enters transposed. -/
theorem rhs_axis0 (j : (⟨2, ![M, N]⟩ : Shape).Idx) (q : (ntDims wf).contr.Idx) :
    ((ntDims wf).rhsIdx j q 0).val = (j 1).val := by
  unfold DotDims.rhsIdx
  rw [dif_neg (show ¬(0 : Fin (⟨2, ![N, K]⟩ : Shape).rank) ∈ (ntDims wf).rhsBatch from List.not_mem_nil),
    dif_pos (show (0 : Fin (⟨2, ![N, K]⟩ : Shape).rank) ∈ (ntDims wf).rhsNonContracting from List.mem_singleton.mpr rfl)]
  rfl
/-- The right operand's contracted axis reads the contraction coordinate. -/
theorem rhs_axis1 (j : (⟨2, ![M, N]⟩ : Shape).Idx) (q : (ntDims wf).contr.Idx) :
    ((ntDims wf).rhsIdx j q 1).val = (q ⟨0, Nat.one_pos⟩).val :=
  (ntDims wf).rhsIdx_val_of_single rfl j q

/-- THE PRODUCT AT (p, q), into the zero accumulator: the sum over the shared last coordinate. -/
theorem matmul_zero_nt_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (ntDims wf) prec lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k := funext fun a => Fin.ext (by
    match a with
    | ⟨0, _⟩ => exact lhs_axis0 wf _ _
    | ⟨1, _⟩ => exact (lhs_axis1 wf _ _).trans hk)
  have er : (ntDims wf).rhsIdx (ix2 p q) ((contrEquiv1 (ntDims wf) K rfl rfl).symm k) = ix2 q k := funext fun a => Fin.ext (by
    match a with
    | ⟨0, _⟩ => exact rhs_axis0 wf _ _
    | ⟨1, _⟩ => exact (rhs_axis1 wf _ _).trans hk)
  rw [el, er]

end Cert.LibMatmulNT

end
-- ==== Proof.Body.lean ====
/-
  The two values the kernel body stores into its accumulator, read at an index over the extended reals.
  The reset value is the zero block. The update value, given the accumulator `acc` : [512, 2048] it finds, the block
  `a` : [512, 1024] of the left operand and the block `b` : [2048, 1024] of the right operand, holds at (p, q)
      acc (p, q) + Σ_k a (p, k) · b (q, k):
  the product contracts the last axis of both blocks and starts from the zero accumulator.
-/
import proofs.«181098_j35029753266602_1_alg».proof.Proof.Gen.KernelIdeal.Skeleton
import proofs.«181098_j35029753266602_1_alg».proof.Proof.LibMatmulNT
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The reset value is zero everywhere. -/
theorem reset_apply (j : S512x2048.Idx) : k0_pay1 (F := Ideal) j = 0 := by
  unfold k0_pay1
  simp only [shapeCast_self]
  exact Ideal.ofBits_zero_f32

/-- The update value at (p, q): what the accumulator held there plus row p of the left block against row q of the
    right block. -/
theorem update_apply (acc : Vec Ideal S512x2048 .f32) (a : Vec Ideal S512x1024 .bf16) (b : Vec Ideal S2048x1024 .bf16)
    (p : Fin 512) (q : Fin 2048) :
    k0_pay2 (F := Ideal) acc a b (ix2 p q) = acc (ix2 p q) + ∑ k : Fin 1024, a (ix2 p k) * b (ix2 q k) := by
  unfold k0_pay2
  simp only [shapeCast_self]
  refine congrArg (acc (ix2 p q) + ·) ?_
  exact Cert.LibMatmulNT.matmul_zero_nt_apply dot_S512x1024_S2048x1024_S512x2048_1_1_0_0_n_n_wf none a b p q

end Cert.KernelIdeal.Body

end
-- ==== Proof.Pieces.lean ====
/-
  What one run of the kernel body leaves behind, as values. The body keeps a running total in a scratch block
  [512, 2048]. At a point that starts a new row tile it first overwrites the scratch with zeros, at any other point it
  keeps what the point before left; then, in both cases, it replaces the scratch by the update value of (scratch, left
  block, right block) and copies the scratch into the output block. Every store covers its whole block and every load
  reads a whole block, so each block ends at exactly the last value stored into it:
    a starting point leaves  update (zeros, a, b)  in the scratch,
    any other point leaves   update (acc, a, b)    in the scratch and in the output block.
-/
import proofs.«181098_j35029753266602_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The offsets of every access of the body: the block's origin. -/
theorem origin : (![0, 0] : Fin 2 → Nat) = fun _ => 0 := funext fun a => by fin_cases a <;> rfl

/-- A point that does not start a row tile leaves the update of what it found in the scratch. -/
theorem scratch_carry (c : Dev nD) (i : grid0.Coords) (a2 : Memref sig .tc .vmem S512x1024 .bf16) (h2 : a2.IsWhole)
    (a3 : Memref sig .tc .vmem S2048x1024 .bf16) (h3 : a3.IsWhole) (a4 : Memref sig .tc .vmem S512x2048 .f32) (h4 : a4.IsWhole)
    (a5 : Memref sig .tc .vmem S512x2048 .f32) (h5 : a5.IsWhole) (hc : ¬cond0_0 i)
    (x0 : Vec F S512x1024 .bf16) (x1 : Vec F S2048x1024 .bf16) (xs0 : Vec F S512x2048 .f32) :
    sout0_B_0 c i a2 h2 a3 h3 a4 h4 a5 h5 hc x0 x1 xs0 = k0_pay2 xs0 x0 x1 := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero origin]
  simp only [View.readAt_eq_ld, h2.read_unread, h3.read_unread, h5.read_unread, View.ld_unit_zero (S := S512x2048) origin,
    View.ld_unit_zero (S := S512x1024) origin, View.ld_unit_zero (S := S2048x1024) origin]

/-- … and the same value in the output block, which it copies from the scratch. -/
theorem output_carry (c : Dev nD) (i : grid0.Coords) (a2 : Memref sig .tc .vmem S512x1024 .bf16) (h2 : a2.IsWhole)
    (a3 : Memref sig .tc .vmem S2048x1024 .bf16) (h3 : a3.IsWhole) (a4 : Memref sig .tc .vmem S512x2048 .f32) (h4 : a4.IsWhole)
    (a5 : Memref sig .tc .vmem S512x2048 .f32) (h5 : a5.IsWhole) (hc : ¬cond0_0 i)
    (x0 : Vec F S512x1024 .bf16) (x1 : Vec F S2048x1024 .bf16) (xs0 : Vec F S512x2048 .f32) :
    out0_B_2 c i a2 h2 a3 h3 a4 h4 a5 h5 hc x0 x1 xs0 = k0_pay2 xs0 x0 x1 := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero origin]
  simp only [View.readCov_unit_zero (S := S512x2048) _ origin, View.readAt_eq_ld, h2.read_unread, h3.read_unread,
    h5.read_unread, View.ld_unit_zero (S := S512x2048) origin, View.ld_unit_zero (S := S512x1024) origin,
    View.ld_unit_zero (S := S2048x1024) origin]

/-- A point that starts a row tile leaves the update of the zero block in the scratch. -/
theorem scratch_start (c : Dev nD) (i : grid0.Coords) (a2 : Memref sig .tc .vmem S512x1024 .bf16) (h2 : a2.IsWhole)
    (a3 : Memref sig .tc .vmem S2048x1024 .bf16) (h3 : a3.IsWhole) (a4 : Memref sig .tc .vmem S512x2048 .f32) (h4 : a4.IsWhole)
    (a5 : Memref sig .tc .vmem S512x2048 .f32) (h5 : a5.IsWhole) (hc : cond0_0 i)
    (x0 : Vec F S512x1024 .bf16) (x1 : Vec F S2048x1024 .bf16) :
    sout0_A_0 c i a2 h2 a3 h3 a4 h4 a5 h5 hc x0 x1 = k0_pay2 k0_pay1 x0 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S512x2048) origin]
  simp only [View.readCov_unit_zero (S := S512x2048) _ origin, View.readAt_eq_ld, h2.read_unread, h3.read_unread,
    View.ld_unit_zero (S := S512x1024) origin, View.ld_unit_zero (S := S2048x1024) origin]

end Cert.KernelIdeal.Pieces

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.Spec.lean ====
/-
  The function both programs compute, over the extended reals: for a left operand x : [4096, 16384] and a right operand
  w : [2048, 16384], the array [4096, 2048] whose entry (r, q) is the sum over K of x (r, K) · w (q, K) — row r of x
  against row q of w. The contraction over 16384 positions is also the sum, over 16 consecutive blocks of 1024 positions,
  of each block's own sum: addition of extended reals is commutative and associative, which is all a regrouping needs,
  so no entry has to be finite.
-/
import proofs.«181098_j35029753266602_1_alg».proof.Proof.LibSumBlocks
import Idealize.ShloMosaic.Lib.ValueIdx
import Idealize.ShloMosaic.PureOps.Ideal

noncomputable section

namespace Cert.Spec

open Idealize.ShloMosaic Idealize.ShloMosaic.ValueIdx

/-- Position k of block s of the contracted axis: the number 1024 · s + k. -/
abbrev pos (s : Fin 16) (k : Fin 1024) : Fin 16384 := ⟨1024 * s.val + k.val, by have := s.isLt; have := k.isLt; omega⟩

/-- Rows against rows: entry (r, q) is the sum over the shared last coordinate. -/
def rowsDot (x : (⟨2, ![4096, 16384]⟩ : Shape).Idx → EReal) (w : (⟨2, ![2048, 16384]⟩ : Shape).Idx → EReal) :
    (⟨2, ![4096, 2048]⟩ : Shape).Idx → EReal :=
  fun i => ∑ K : Fin 16384, x (ix2 (i 0) K) * w (ix2 (i 1) K)

/-- What block s of the contracted axis contributes to entry (r, q); zero for a number that names no block. -/
def blockTerm (x : (⟨2, ![4096, 16384]⟩ : Shape).Idx → EReal) (w : (⟨2, ![2048, 16384]⟩ : Shape).Idx → EReal)
    (r : Fin 4096) (q : Fin 2048) (s : ℕ) : EReal :=
  if hs : s < 16 then ∑ k : Fin 1024, x (ix2 r (pos ⟨s, hs⟩ k)) * w (ix2 q (pos ⟨s, hs⟩ k)) else 0

/-- The sixteen blocks' contributions add up to the entry. -/
theorem sum_blockTerm (x : (⟨2, ![4096, 16384]⟩ : Shape).Idx → EReal) (w : (⟨2, ![2048, 16384]⟩ : Shape).Idx → EReal)
    (r : Fin 4096) (q : Fin 2048) :
    ∑ s ∈ Finset.range 16, blockTerm x w r q s = rowsDot x w (ix2 r q) := by
  rw [Finset.sum_range]
  unfold rowsDot
  rw [Cert.LibSumBlocks.sum_blocks (a := 16) (b := 1024) (n := 16384) rfl
    (fun K : Fin 16384 => x (ix2 r K) * w (ix2 q K)) pos (fun _ _ => rfl)]
  refine Finset.sum_congr rfl fun s _ => ?_
  unfold blockTerm
  rw [dif_pos s.isLt]

end Cert.Spec

end
-- ==== Proof.KernelValue.lean ====
/-
  The idealized kernel's result array as the specification.

  The grid has 128 points, 16 for each of 8 row tiles of 512 rows. Point 16·b + s works on rows 512·b … 512·b + 511 of the
  left operand and on positions 1024·s … 1024·s + 1023 of the contracted axis; it sees the whole right operand on those
  positions. Over the 16 points of a row tile the scratch block runs through the partial sums: it restarts from zero at
  s = 0 and gains block s's contribution at every s, so after the last point of the tile (s = 15) entry (p, q) of the
  scratch, and of the output block copied from it, is the sum over the 16 blocks of the sum over the 1024 positions of
  left (512·b + p, ·) · right (q, ·) — the specification's entry (512·b + p, q). Only that last point writes the output
  block back, to rows 512·b … 512·b + 511 of the result, and the 8 tiles' write-backs cover the result array.
  The operands the kernel reads are the launch arrays after the host prefix: the left one unchanged (its change of format
  is the identity over the extended reals), the right one multiplied entry by entry by the tiled-identity mask.
-/
import proofs.«181098_j35029753266602_1_alg».proof.Proof.Gen.KernelIdeal.Value
import proofs.«181098_j35029753266602_1_alg».proof.Proof.Body
import proofs.«181098_j35029753266602_1_alg».proof.Proof.Pieces
import proofs.«181098_j35029753266602_1_alg».proof.Proof.Spec
import Idealize.ShloMosaic.Lib.Pipeline.Value
import Idealize.ShloMosaic.Lib.StableHlo.Run
import Idealize.ShloMosaic.Lib.ValueIdx

noncomputable section

namespace Cert.KernelIdeal.AccValue

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

/-! ## The operands after the host prefix -/

/-- The weight times the tiled-identity mask, as the host prefix builds it. -/
def masked (w : FVec Ideal S2048x16384 .f32) : FVec Ideal S2048x16384 .f32 :=
  mulf w (shapeCast _ (broadcastInDim S1x2048x8x2048 ![0, 1, 2, 3] bcast_S1x2048x1x2048_S1x2048x8x2048_0_1_2_3
    (shapeCast _ (uitofp .f32 (cmpi .eq (addi (iotaInDim S2048x2048 32 0) (broadcastInDim S2048x2048 ![] bcast_S_S2048x2048
      (constantI S_ 32 0#32))) (iotaInDim S2048x2048 32 1))) shapeCasts_S2048x2048_S1x2048x1x2048))
    shapeCasts_S1x2048x8x2048_S2048x16384)

/-- The left operand, as launched. -/
abbrev left (c : Dev nD) : FVec Ideal S4096x16384 .f32 := m ((c : Thread nD τ).loc main_arg0)
/-- The right operand: the launched weight, masked. -/
abbrev right (c : Dev nD) : FVec Ideal S2048x16384 .f32 := masked (m ((c : Thread nD τ).loc main_arg1))

/-- The array the left window stages is the left operand. -/
theorem staged_left (c : Dev nD) : (V m c main_v10 : S4096x16384.Idx → EReal) = left m c := by
  dsimp only [V, hostOps0]; after_results; rfl

/-- The array the right window stages is the right operand. -/
theorem staged_right (c : Dev nD) : (V m c main_v11 : S2048x16384.Idx → EReal) = right m c := by
  dsimp only [V, hostOps0]; after_results; rfl

/-! ## The blocks a point reads -/

/-- The left block at a point. -/
abbrev leftBlock (c : Dev nD) (t : Fin cfg0.N) : Vec Ideal S512x1024 .bf16 := iblk m c 0 t
/-- The right block at a point. -/
abbrev rightBlock (c : Dev nD) (t : Fin cfg0.N) : Vec Ideal S2048x1024 .bf16 := iblk m c 1 t

/-- Where the three windows are at point t: row tile t / 16, contraction block t % 16. -/
theorem where_at : ∀ t : Fin cfg0.N, win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- Entry (p, k) of the left block is the left operand at row 512·(t / 16) + p, position 1024·(t % 16) + k. -/
theorem leftBlock_apply (c : Dev nD) (t : Fin cfg0.N) (p : Fin 512) (k : Fin 1024) (r : Fin 4096) (K : Fin 16384)
    (hr : r.val = 512 * (t.val / 16) + p.val) (hK : K.val = 1024 * (t.val % 16) + k.val) :
    leftBlock m c t (ix2 p k) = left m c (ix2 r K) := by
  show V m c main_v10 (((cfg0.win 0).blk t).view.emb (ix2 p k)) = _
  rw [← staged_left]
  refine congrArg (V m c main_v10) (funext fun a => Fin.ext ?_)
  obtain ⟨e0, e1, -, -, -, -⟩ := where_at t
  match a with
  | ⟨0, _⟩ => show win0_0.index t (0 : Fin 2) * 512 + 1 * p.val = r.val; omega
  | ⟨1, _⟩ => show win0_0.index t (1 : Fin 2) * 1024 + 1 * k.val = K.val; omega

/-- Entry (q, k) of the right block is the right operand at row q, position 1024·(t % 16) + k. -/
theorem rightBlock_apply (c : Dev nD) (t : Fin cfg0.N) (q : Fin 2048) (k : Fin 1024) (K : Fin 16384)
    (hK : K.val = 1024 * (t.val % 16) + k.val) :
    rightBlock m c t (ix2 q k) = right m c (ix2 q K) := by
  show V m c main_v11 (((cfg0.win 1).blk t).view.emb (ix2 q k)) = _
  rw [← staged_right]
  refine congrArg (V m c main_v11) (funext fun a => Fin.ext ?_)
  obtain ⟨-, -, e2, e3, -, -⟩ := where_at t
  match a with
  | ⟨0, _⟩ => show win0_1.index t (0 : Fin 2) * 2048 + 1 * q.val = q.val; omega
  | ⟨1, _⟩ => show win0_1.index t (1 : Fin 2) * 1024 + 1 * k.val = K.val; omega

/-! ## The scratch after each point: the partial sums -/

/-- What point n adds to entry i of the scratch: row i₀ of its left block against row i₁ of its right block
    (zero for a number that names no point). -/
def addend (c : Dev nD) (n : ℕ) (i : S512x2048.Idx) : EReal :=
  if h : n < cfg0.N then ∑ k : Fin 1024, leftBlock m c ⟨n, h⟩ (ix2 (i 0) k) * rightBlock m c ⟨n, h⟩ (ix2 (i 1) k) else 0

/-- A point that starts a row tile leaves its own addend, whatever the scratch held. -/
theorem step_start (c : Dev nD) (n : ℕ) (h : n < cfg0.N) (h0 : n % 16 = 0) (acc : Vec Ideal S512x2048 .f32)
    (i : S512x2048.Idx) : scAt0_0 m c n h acc i = 0 + addend m c n i := by
  obtain ⟨p, q, rfl⟩ : ∃ (p : Fin 512) (q : Fin 2048), i = ix2 p q := ⟨i 0, i 1, eq_ix2 i⟩
  unfold scAt0_0
  rw [dif_pos h0]
  refine (congrFun (Pieces.scratch_start (F := Ideal) c (grid0.coords (⟨n, h⟩ : Fin cfg0.N)) (ms0_0 ⟨n, h⟩) (hs0_0 ⟨n, h⟩)
    (ms0_1 ⟨n, h⟩) (hs0_1 ⟨n, h⟩) (ms0_2 ⟨n, h⟩) (hs0_2 ⟨n, h⟩) scM0_0 (Memref.isWhole_whole _)
    ((hcond0_0 (⟨n, h⟩ : Fin cfg0.N)).mpr h0) (leftBlock m c ⟨n, h⟩) (rightBlock m c ⟨n, h⟩)) (ix2 p q)).trans ?_
  refine (Body.update_apply _ (leftBlock m c ⟨n, h⟩) (rightBlock m c ⟨n, h⟩) p q).trans ?_
  unfold addend
  rw [dif_pos h, Body.reset_apply]

/-- Any other point adds its addend to what the point before left. -/
theorem step_carry (c : Dev nD) (n : ℕ) (h : n < cfg0.N) (h0 : ¬n % 16 = 0) (acc : Vec Ideal S512x2048 .f32)
    (i : S512x2048.Idx) : scAt0_0 m c n h acc i = acc i + addend m c n i := by
  obtain ⟨p, q, rfl⟩ : ∃ (p : Fin 512) (q : Fin 2048), i = ix2 p q := ⟨i 0, i 1, eq_ix2 i⟩
  unfold scAt0_0
  rw [dif_neg h0]
  refine (congrFun (Pieces.scratch_carry (F := Ideal) c (grid0.coords (⟨n, h⟩ : Fin cfg0.N)) (ms0_0 ⟨n, h⟩) (hs0_0 ⟨n, h⟩)
    (ms0_1 ⟨n, h⟩) (hs0_1 ⟨n, h⟩) (ms0_2 ⟨n, h⟩) (hs0_2 ⟨n, h⟩) scM0_0 (Memref.isWhole_whole _)
    (fun hh => h0 ((hcond0_0 (⟨n, h⟩ : Fin cfg0.N)).mp hh)) (leftBlock m c ⟨n, h⟩) (rightBlock m c ⟨n, h⟩) acc) (ix2 p q)).trans ?_
  refine (Body.update_apply acc (leftBlock m c ⟨n, h⟩) (rightBlock m c ⟨n, h⟩) p q).trans ?_
  unfold addend
  rw [dif_pos h]

/-- After point t the scratch holds, entry by entry, the addends of the points of t's row tile up to t. -/
theorem scratch_after (c : Dev nD) (t : Fin cfg0.N) (i : S512x2048.Idx) :
    (outsAt0 m c t.val t.isLt).2 i = 0 + ∑ s ∈ Finset.range (t.val % 16 + 1), addend m c (16 * (t.val / 16) + s) i := by
  rw [soutsAt0_0_eq m c t]
  have hN : cfg0.N = 128 := N_0
  exact Pipeline.accAt_add_apply (fun n h => scAt0_0 m c n h (VS0_0.read (Elt Ideal) VS0_0.junk)) (scAt0_0 m c)
    (fun _ => (0 : EReal)) (addend m c) (16 * (t.val / 16)) 15
    (fun h i => step_start m c _ h (Nat.mul_mod_right 16 _) _ i)
    (fun n h acc i h1 h2 => step_carry m c n h (by omega) acc i)
    (t.val % 16) (by have := Nat.mod_lt t.val (show 0 < 16 by decide); omega) _ i

/-- The addend of point 16·b + s at (p, q) is block s's contribution to the specification's entry (512·b + p, q). -/
theorem addend_eq (c : Dev nD) (b : ℕ) (hb : b < 8) (s : ℕ) (hs : s < 16) (p : Fin 512) (q : Fin 2048) (r : Fin 4096)
    (hr : r.val = 512 * b + p.val) :
    addend m c (16 * b + s) (ix2 p q) = Cert.Spec.blockTerm (left m c) (right m c) r q s := by
  have hN : cfg0.N = 128 := N_0
  have hn : 16 * b + s < cfg0.N := by omega
  unfold addend Cert.Spec.blockTerm
  rw [dif_pos hn, dif_pos hs]
  refine Finset.sum_congr rfl fun k _ => ?_
  have hd : (16 * b + s) / 16 = b := by omega
  have hm : (16 * b + s) % 16 = s := by omega
  rw [leftBlock_apply m c ⟨16 * b + s, hn⟩ p k r (Cert.Spec.pos ⟨s, hs⟩ k) (by show r.val = 512 * ((16 * b + s) / 16) + p.val; rw [hd]; exact hr)
      (by show 1024 * s + k.val = 1024 * ((16 * b + s) % 16) + k.val; rw [hm]),
    rightBlock_apply m c ⟨16 * b + s, hn⟩ q k (Cert.Spec.pos ⟨s, hs⟩ k)
      (by show 1024 * s + k.val = 1024 * ((16 * b + s) % 16) + k.val; rw [hm])]

/-! ## The write-back, the cover, the result -/

/-- A point that does not start a row tile leaves in the output block what it leaves in the scratch. -/
theorem output_eq_scratch (c : Dev nD) (t : Fin cfg0.N) (h0 : ¬t.val % 16 = 0) :
    (outsAt0 m c t.val t.isLt).1 = (outsAt0 m c t.val t.isLt).2 := by
  rw [outsAt0_B m c t h0]
  dsimp only
  exact (Pieces.output_carry (F := Ideal) c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2).trans
    (Pieces.scratch_carry (F := Ideal) c (grid0.coords t) (ms0_0 t) (hs0_0 t) (ms0_1 t) (hs0_1 t) (ms0_2 t) (hs0_2 t) scM0_0
    (Memref.isWhole_whole _) (fun h => h0 ((hcond0_0 t).mp h)) (iblk m c 0 t) (iblk m c 1 t)
    (outsAt0 m c (t.val - 1) (Nat.lt_of_le_of_lt (Nat.sub_le _ _) t.isLt)).2).symm

/-- At the last point of a row tile the output block holds the specification on the tile's rows. -/
theorem output_last (c : Dev nD) (t : Fin cfg0.N) (hl : t.val % 16 = 15) (p : Fin 512) (q : Fin 2048) (r : Fin 4096)
    (hr : r.val = 512 * (t.val / 16) + p.val) :
    (outsAt0 m c t.val t.isLt).1 (ix2 p q) = Cert.Spec.rowsDot (left m c) (right m c) (ix2 r q) := by
  have hN : cfg0.N = 128 := N_0
  have ht := t.isLt
  rw [output_eq_scratch m c t (by omega), scratch_after m c t (ix2 p q), hl, zero_add,
    ← Cert.Spec.sum_blockTerm (left m c) (right m c) r q]
  refine Finset.sum_congr rfl fun s hs => ?_
  exact addend_eq m c (t.val / 16) (by omega) s (Finset.mem_range.mp hs) p q r hr

set_option maxRecDepth 65536 in
/-- What a writing point writes back is its block of the specification. -/
theorem flushed_eq (c : Dev nD) (t : Fin cfg0.N) (hf : (cfg0.win 2).flush t = true) :
    (dats m 0 c).flushed 2 t = ((cfg0.win 2).blk t).view.read (Elt Ideal) (Cert.Spec.rowsDot (left m c) (right m c)) := by
  have hl : t.val % 16 = 15 := (flush0_2 t).mp hf
  have hN : cfg0.N = 128 := N_0
  have ht := t.isLt
  obtain ⟨-, -, -, -, e4, e5⟩ := where_at t
  rw [flushed2]
  funext y
  have hy0 : (y 0).val < 512 := Nat.lt_of_lt_of_le (y 0).isLt ((cfg0.win 2).xsize_le (grid0.coords t) 0)
  have hy1 : (y 1).val < 2048 := Nat.lt_of_lt_of_le (y 1).isLt ((cfg0.win 2).xsize_le (grid0.coords t) 1)
  rw [View.read_apply]
  refine Eq.trans (congrArg (outsAt0 m c t.val t.isLt).1
    (?_ : _ = ix2 (⟨(y 0).val, hy0⟩ : Fin 512) (⟨(y 1).val, hy1⟩ : Fin 2048))) ?_
  · funext a
    apply Fin.ext
    match a with
    | ⟨0, _⟩ => rfl
    | ⟨1, _⟩ => rfl
  refine (output_last m c t hl ⟨(y 0).val, hy0⟩ ⟨(y 1).val, hy1⟩ ⟨512 * (t.val / 16) + (y 0).val, by omega⟩ rfl).trans
    (congrArg (Cert.Spec.rowsDot (left m c) (right m c)) ?_)
  funext a
  apply Fin.ext
  match a with
  | ⟨0, _⟩ => show 512 * (t.val / 16) + (y 0).val = win0_2.index t (0 : Fin 2) * 512 + 1 * (y 0).val; omega
  | ⟨1, _⟩ => show (y 1).val = win0_2.index t (1 : Fin 2) * 2048 + 1 * (y 1).val; omega

/-- An index of the result is in point t's block iff each coordinate is in the block's range on its axis. -/
theorem mem_block (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v12).slice (win0_2.rect t)).set ↔ _
  rw [View.set_slice_whole, Rect.mem_set_unit]
  exact Iff.rfl

/-- Row r of the result is written back by the last point of row tile r / 512. -/
theorem covered (i : S4096x2048.Idx) :
    ∃ t : Fin cfg0.N, (cfg0.win 2).flush t = true ∧ i ∈ ((cfg0.win 2).blk t).view.set := by
  have hN : cfg0.N = 128 := N_0
  have hi0 : (i 0).val < 4096 := (i 0).isLt
  have hi1 : (i 1).val < 2048 := (i 1).isLt
  have hn : 16 * ((i 0).val / 512) + 15 < cfg0.N := by omega
  refine ⟨⟨16 * ((i 0).val / 512) + 15, hn⟩, (flush0_2 _).mpr (by show (16 * ((i 0).val / 512) + 15) % 16 = 15; omega), ?_⟩
  obtain ⟨-, -, -, -, e4, e5⟩ := where_at ⟨16 * ((i 0).val / 512) + 15, hn⟩
  have e4' : win0_2.index ⟨16 * ((i 0).val / 512) + 15, hn⟩ (0 : Fin 2) = (i 0).val / 512 :=
    e4.trans (by show (16 * ((i 0).val / 512) + 15) / 16 = (i 0).val / 512; omega)
  rw [mem_block]
  intro a
  match a with
  | ⟨0, _⟩ => show win0_2.index _ (0 : Fin 2) * 512 ≤ (i 0).val ∧ (i 0).val < win0_2.index _ (0 : Fin 2) * 512 + 512; rw [e4']; omega
  | ⟨1, _⟩ => show win0_2.index _ (1 : Fin 2) * 2048 ≤ (i 1).val ∧ (i 1).val < win0_2.index _ (1 : Fin 2) * 2048 + 2048; rw [e5]; omega

/-- The result array after the run is the specification of the two operands. -/
theorem final (c : Dev nD) : (dats m 0 c).arrAt 2 cfg0.N = Cert.Spec.rowsDot (left m c) (right m c) :=
  (dats m 0 c).arrAt_eq_of_cover 2 (Cert.Spec.rowsDot (left m c) (right m c)) (flushed_eq m c) covered

/-- The run: the result array at the specification, the arguments unchanged. -/
theorem run : θ_run defs (onTc (τ := τ) (main (F := Ideal))) ⟨m, fun _ => 0, ρ⟩ fun r => ∀ c : Dev nD,
      r.2.mem ((c : Thread nD τ).loc main_v12) = Cert.Spec.rowsDot (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.AccValue

end
-- ==== Proof.RefValue.lean ====
/-
  The reference's result as the specification. The reference multiplies the weight by the tiled-identity mask, transposes
  the product to [16384, 2048] and contracts x's last axis with the transposed array's first axis. Reading the transposed
  array at (K, q) is reading the masked weight at (q, K), so entry (r, q) of the result is the sum over K of
  x (r, K) · masked (q, K): rows of x against rows of the masked weight.
-/
import proofs.«181098_j35029753266602_1_alg».proof.Proof.Gen.ReferenceIdeal.Read
import proofs.«181098_j35029753266602_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage is rows of x against rows of the masked weight. -/
theorem result_eq (x0 : (⟨S4096x16384, .f32⟩ : BufTy).Contents (Elt Ideal)) (x1 : (⟨S2048x16384, .f32⟩ : BufTy).Contents (Elt Ideal)) :
    val_main_v11 (F := Ideal) x0 x1 = Cert.Spec.rowsDot x0 (val_main_v9 (F := Ideal) x1) := by
  funext i
  rw [val_main_v11_apply]
  unfold Cert.Spec.rowsDot
  refine Finset.sum_congr rfl fun K _ => ?_
  rw [val_main_v10_apply]
  have el : lidx_main_v11 i K = ix2 (i 0) K :=
    funext fun a => Fin.ext (by match a with | ⟨0, _⟩ => rfl | ⟨1, _⟩ => rfl)
  have er : idx_main_v10 (ridx_main_v11 i K) = ix2 (i 1) K :=
    funext fun a => Fin.ext (by match a with | ⟨0, _⟩ => rfl | ⟨1, _⟩ => rfl)
  rw [el, er]
  rfl

end Cert.ReferenceIdeal.RefValue

end
-- ==== Proof.lean ====
/-
  out = x · (weight ∘ mask)ᵀ for x : [4096, 16384] and weight : [2048, 16384], the mask the identity [2048, 2048] tiled 8 times
  along the second axis. Both programs build the masked weight by the same host operations. The kernel then changes both
  operands' format (the identity over the extended reals) and runs one tiled product on a grid of 8 row tiles by 16 blocks
  of the contracted axis, adding each block's partial product into a running total that restarts with every row tile and
  is written back after the tile's last block. The reference transposes the masked weight and contracts once over all
  16384 positions. Entry (r, q) is on both sides the sum over K of x (r, K) · masked (q, K): the kernel reaches it as the
  sum over 16 blocks of the sum over each block's 1024 positions, and regrouping a finite sum only needs addition to be
  commutative and associative, which it is on the extended reals — so the inputs' finiteness is never used.
  The three frames are the generated ones (the reference's is its generated run with the result dropped); the ideal pass
  rewrote nothing, so the kernel's idealization claim is trivial.
-/
import proofs.«181098_j35029753266602_1_alg».proof.Defs
import proofs.«181098_j35029753266602_1_alg».proof.Proof.Gen.Kernel
import proofs.«181098_j35029753266602_1_alg».proof.Proof.Gen.Kernel.Skeleton
import proofs.«181098_j35029753266602_1_alg».proof.Proof.Gen.Kernel.Launch
import proofs.«181098_j35029753266602_1_alg».proof.Proof.Gen.Kernel.Points
import proofs.«181098_j35029753266602_1_alg».proof.Proof.Gen.Kernel.Frame
import proofs.«181098_j35029753266602_1_alg».proof.Proof.Gen.KernelIdeal
import proofs.«181098_j35029753266602_1_alg».proof.Proof.Gen.KernelIdeal.Skeleton
import proofs.«181098_j35029753266602_1_alg».proof.Proof.Gen.KernelIdeal.Launch
import proofs.«181098_j35029753266602_1_alg».proof.Proof.Gen.KernelIdeal.Points
import proofs.«181098_j35029753266602_1_alg».proof.Proof.Gen.KernelIdeal.Frame
import proofs.«181098_j35029753266602_1_alg».proof.Proof.Gen.ReferenceIdeal
import proofs.«181098_j35029753266602_1_alg».proof.Proof.Gen.Pre_finite_inputs
import proofs.«181098_j35029753266602_1_alg».proof.Proof.Gen.KernelIdeal.Value
import proofs.«181098_j35029753266602_1_alg».proof.Proof.Gen.ReferenceIdeal.Run
import proofs.«181098_j35029753266602_1_alg».proof.Proof.Gen.ReferenceIdeal.Read
import proofs.«181098_j35029753266602_1_alg».proof.Proof.KernelValue
import proofs.«181098_j35029753266602_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with rows of x against rows of the masked weight; from arguments that agree these are
    the same array, the two maskings being the same operations of the same weight. -/
theorem algebraic : Cert.algebraic_KernelIdeal_ReferenceIdeal := by
  intro m ρ m' ρ' _ hagree
  refine ⟨fun c => Cert.Spec.rowsDot (Cert.KernelIdeal.AccValue.left m c) (Cert.KernelIdeal.AccValue.right m c),
    Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v11 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
  rw [Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
